-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x128 : Shape := ⟨3, ![16, 8192, 128]⟩
abbrev S16x8192 : Shape := ⟨2, ![16, 8192]⟩
abbrev S16x128 : Shape := ⟨2, ![16, 128]⟩
abbrev S16x128x4 : Shape := ⟨3, ![16, 128, 4]⟩
abbrev S16x4 : Shape := ⟨2, ![16, 4]⟩
abbrev S_ : Shape := ⟨0, ![]⟩

class Facts : Prop where
  bcast_S_S16x8192x128 : S_.BroadcastsInDim S16x8192x128 (![] : Fin 0 → Fin S16x8192x128.rank)
  reducesTo_S16x8192x128_S_d0_1_2 : S16x8192x128.ReducesTo [0, 1, 2] S_
  h_S_ : 0 < S_.numel
  bcast_S_S16x8192 : S_.BroadcastsInDim S16x8192 (![] : Fin 0 → Fin S16x8192.rank)
  reducesTo_S16x8192_S_d0_1 : S16x8192.ReducesTo [0, 1] S_
  bcast_S_S16x128 : S_.BroadcastsInDim S16x128 (![] : Fin 0 → Fin S16x128.rank)
  reducesTo_S16x128_S_d0_1 : S16x128.ReducesTo [0, 1] S_
  bcast_S_S16x128x4 : S_.BroadcastsInDim S16x128x4 (![] : Fin 0 → Fin S16x128x4.rank)
  reducesTo_S16x128x4_S_d0_1_2 : S16x128x4.ReducesTo [0, 1, 2] S_
  bcast_S_S16x4 : S_.BroadcastsInDim S16x4 (![] : Fin 0 → Fin S16x4.rank)
  reducesTo_S16x4_S_d0_1 : S16x4.ReducesTo [0, 1] S_

variable [Facts]

def fn_part1 {F : FTy → Type} [FloatOps F] (main_arg4 : FVec F S16x128x4 .f32) (main_arg5 : FVec F S16x4 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S16x128x4 .f32 := Host.absf main_arg4
  let main_cst_6 : FVec F S_ .f32 := constant S_ .f32 0x7F800000#32
  let main_v20 : FVec F S16x128x4 .f32 := broadcastInDim S16x128x4 ![] bcast_S_S16x128x4 main_cst_6
  let main_v21 : IVec S16x128x4 1 := cmpf .olt main_v19 main_v20
  let main_c_7 : IVec S_ 1 := constantI S_ 1 1#1
  let main_v22 : IVec S_ 1 := (fun x v => Host.reduce IntOp.andi x v reducesTo_S16x128x4_S_d0_1_2 h_S_) main_v21 main_c_7
  let main_v23 : IVec S_ 1 := andi main_v18 main_v22
  let main_v24 : FVec F S16x4 .f32 := Host.absf main_arg5
  let main_cst_8 : FVec F S_ .f32 := constant S_ .f32 0x7F800000#32
  let main_v25 : FVec F S16x4 .f32 := broadcastInDim S16x4 ![] bcast_S_S16x4 main_cst_8
  let main_v26 : IVec S16x4 1 := cmpf .olt main_v24 main_v25
  let main_c_9 : IVec S_ 1 := constantI S_ 1 1#1
  let main_v27 : IVec S_ 1 := (fun x v => Host.reduce IntOp.andi x v reducesTo_S16x4_S_d0_1 h_S_) main_v26 main_c_9
  let main_v28 : IVec S_ 1 := andi main_v23 main_v27
  main_v28

def fn {F : FTy → Type} [FloatOps F] (main_arg0 : FVec F S16x8192x128 .f32) (main_arg1 : FVec F S16x8192 .f32) (main_arg2 : FVec F S16x128 .f32) (main_arg3 : FVec F S16x128 .f32) (main_arg4 : FVec F S16x128x4 .f32) (main_arg5 : FVec F S16x4 .f32) : IVec S_ 1 :=
  let main_v0 : FVec F S16x8192x128 .f32 := Host.absf main_arg0
  let main_cst : FVec F S_ .f32 := constant S_ .f32 0x7F800000#32
  let main_v1 : FVec F S16x8192x128 .f32 := broadcastInDim S16x8192x128 ![] bcast_S_S16x8192x128 main_cst
  let main_v2 : IVec S16x8192x128 1 := cmpf .olt main_v0 main_v1
  let main_c : IVec S_ 1 := constantI S_ 1 1#1
  let main_v3 : IVec S_ 1 := (fun x v => Host.reduce IntOp.andi x v reducesTo_S16x8192x128_S_d0_1_2 h_S_) main_v2 main_c
  let main_v4 : FVec F S16x8192 .f32 := Host.absf main_arg1
  let main_cst_0 : FVec F S_ .f32 := constant S_ .f32 0x7F800000#32
  let main_v5 : FVec F S16x8192 .f32 := broadcastInDim S16x8192 ![] bcast_S_S16x8192 main_cst_0
  let main_v6 : IVec S16x8192 1 := cmpf .olt main_v4 main_v5
  let main_c_1 : IVec S_ 1 := constantI S_ 1 1#1
  let main_v7 : IVec S_ 1 := (fun x v => Host.reduce IntOp.andi x v reducesTo_S16x8192_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S16x128 .f32 := Host.absf main_arg3
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg4 main_arg5 main_v13 main_v16
-- ==== Kernel.lean ====
abbrev S16x8192x128 : Shape := ⟨3, ![16, 8192, 128]⟩
abbrev S16x8192 : Shape := ⟨2, ![16, 8192]⟩
abbrev S16x128 : Shape := ⟨2, ![16, 128]⟩
abbrev S16x128x4 : Shape := ⟨3, ![16, 128, 4]⟩
abbrev S16x4 : Shape := ⟨2, ![16, 4]⟩
abbrev S16x1x8192 : Shape := ⟨3, ![16, 1, 8192]⟩
abbrev S16x1x128 : Shape := ⟨3, ![16, 1, 128]⟩
abbrev S16x1x4 : Shape := ⟨3, ![16, 1, 4]⟩
abbrev S16x8192x132 : Shape := ⟨3, ![16, 8192, 132]⟩
abbrev S1x8192x128 : Shape := ⟨3, ![1, 8192, 128]⟩
abbrev S1x1x8192 : Shape := ⟨3, ![1, 1, 8192]⟩
abbrev S1x1x128 : Shape := ⟨3, ![1, 1, 128]⟩
abbrev S1x128x4 : Shape := ⟨3, ![1, 128, 4]⟩
abbrev S1x1x4 : Shape := ⟨3, ![1, 1, 4]⟩
abbrev S1x8192x132 : Shape := ⟨3, ![1, 8192, 132]⟩
abbrev S8192x128 : Shape := ⟨2, ![8192, 128]⟩
abbrev S1x8192 : Shape := ⟨2, ![1, 8192]⟩
abbrev S8192x1 : Shape := ⟨2, ![8192, 1]⟩
abbrev S1x128 : Shape := ⟨2, ![1, 128]⟩
abbrev S128x4 : Shape := ⟨2, ![128, 4]⟩
abbrev S1x4 : Shape := ⟨2, ![1, 4]⟩
abbrev S8192x4 : Shape := ⟨2, ![8192, 4]⟩
abbrev S8192 : Shape := ⟨1, ![8192]⟩
abbrev S4 : Shape := ⟨1, ![4]⟩
abbrev S1x8192x4 : Shape := ⟨3, ![1, 8192, 4]⟩

abbrev nBuf : Space → Nat
  | .hbm => 11
  | .vmem => 14
  | .smem => 0
  | _ => 0

abbrev bufTy : (tb : Table) → Fin (tcTables nBuf tb) → BufTy
  | .hbm, ⟨0, _⟩ => ⟨S16x8192x128, .f32⟩
  | .hbm, ⟨1, _⟩ => ⟨S16x8192, .f32⟩
  | .hbm, ⟨2, _⟩ => ⟨S16x128, .f32⟩
  | .hbm, ⟨3, _⟩ => ⟨S16x128, .f32⟩
  | .hbm, ⟨4, _⟩ => ⟨S16x128x4, .f32⟩
  | .hbm, ⟨5, _⟩ => ⟨S16x4, .f32⟩
  | .hbm, ⟨6, _⟩ => ⟨S16x1x8192, .f32⟩
  | .hbm, ⟨7, _⟩ => ⟨S16x1x128, .f32⟩
  | .hbm, ⟨8, _⟩ => ⟨S16x1x128, .f32⟩
  | .hbm, ⟨9, _⟩ => ⟨S16x1x4, .f32⟩
  | .hbm, ⟨10, _⟩ => ⟨S16x8192x132, .f32⟩
  | .local _ .vmem, ⟨0, _⟩ => ⟨S1x8192x128, .f32⟩
  | .local _ .vmem, ⟨1, _⟩ => ⟨S1x8192x128, .f32⟩
  | .local _ .vmem, ⟨2, _⟩ => ⟨S1x1x8192, .f32⟩
  | .local _ .vmem, ⟨3, _⟩ => ⟨S1x1x8192, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x128x4, .f32⟩
  | .local _ .vmem, ⟨9, _⟩ => ⟨S1x128x4, .f32⟩
  | .local _ .vmem, ⟨10, _⟩ => ⟨S1x1x4, .f32⟩
  | .local _ .vmem, ⟨11, _⟩ => ⟨S1x1x4, .f32⟩
  | .local _ .vmem, ⟨12, _⟩ => ⟨S1x8192x132, .f32⟩
  | .local _ .vmem, ⟨13, _⟩ => ⟨S1x8192x132, .f32⟩
  | _, _ => ⟨S16x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8192x132 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S16x8192_S16x1x8192_0_2 : S16x8192.BroadcastsInDim S16x1x8192 (![0, 2] : Fin 2 → Fin S16x1x8192.rank)
  bcast_S16x128_S16x1x128_0_2 : S16x128.BroadcastsInDim S16x1x128 (![0, 2] : Fin 2 → Fin S16x1x128.rank)
  bcast_S16x4_S16x1x4_0_2 : S16x4.BroadcastsInDim S16x1x4 (![0, 2] : Fin 2 → Fin S16x1x4.rank)
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S8192x1 : S1x8192.ShapeCasts S8192x1
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  inb_S1x128x4_S1x128x4_0_0_0 : ∀ a, (![0, 0, 0] : Fin 3 → Nat) a + S1x128x4.size a ≤ S1x128x4.size a
  h_S1x128x4 : 0 < S1x128x4.numel
  shapeCasts_S1x128x4_S128x4 : S1x128x4.ShapeCasts S128x4
  inb_S1x1x4_S1x1x4_0_0_0 : ∀ a, (![0, 0, 0] : Fin 3 → Nat) a + S1x1x4.size a ≤ S1x1x4.size a
  h_S1x1x4 : 0 < S1x1x4.numel
  shapeCasts_S1x1x4_S1x4 : S1x1x4.ShapeCasts S1x4
  broadcasts_S1x128_S8192x128 : S1x128.Broadcasts S8192x128
  broadcasts_S8192x1_S8192x128 : S8192x1.Broadcasts S8192x128
  reduces_S8192x128_S8192 : S8192x128.Reduces [1] S8192
  shapeCasts_S8192_S8192x1 : S8192.ShapeCasts S8192x1
  reduces_S128x4_S4 : S128x4.Reduces [0] S4
  shapeCasts_S4_S1x4 : S4.ShapeCasts S1x4
  broadcasts_S8192x1_S8192x4 : S8192x1.Broadcasts S8192x4
  broadcasts_S1x4_S8192x4 : S1x4.Broadcasts S8192x4
  reduces_S8192x4_S4 : S8192x4.Reduces [0] S4
  inb_S1x8192x132_S1x8192x128_0_0_0 : ∀ a, (![0, 0, 0] : Fin 3 → Nat) a + S1x8192x128.size a ≤ S1x8192x132.size a
  shapeCasts_S8192x128_S1x8192x128 : S8192x128.ShapeCasts S1x8192x128
  inb_S1x8192x132_S1x8192x4_0_0_128 : ∀ a, (![0, 0, 128] : Fin 3 → Nat) a + S1x8192x4.size a ≤ S1x8192x132.size a
  h_S1x8192x4 : 0 < S1x8192x4.numel
  shapeCasts_S1x8192x4_S8192x4 : S1x8192x4.ShapeCasts S8192x4
  shapeCasts_S8192x4_S1x8192x4 : S8192x4.ShapeCasts S1x8192x4
  dot_S8192x128_S128x4_S8192x4_1_0_0_1_n_n_wf : DotDims.WF S8192x128 S128x4 S8192x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S16x8192x128.size a
  hwx0_0 : ∀ i : grid0.Coords, EltTy.bits .f32 = 32 ∨ (Rect.block (s := S16x8192x128) S1x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8192.size a ≤ S16x1x8192.size a
  hwx0_1 : ∀ i : grid0.Coords, EltTy.bits .f32 = 32 ∨ (Rect.block (s := S16x1x8192) S1x1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S16x1x128.size a
  hwx0_3 : ∀ i : grid0.Coords, EltTy.bits .f32 = 32 ∨ (Rect.block (s := S16x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x4.size a ≤ S16x128x4.size a
  hwx0_4 : ∀ i : grid0.Coords, EltTy.bits .f32 = 32 ∨ (Rect.block (s := S16x128x4) S1x128x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4.size a ≤ S16x1x4.size a
  hwx0_5 : ∀ i : grid0.Coords, EltTy.bits .f32 = 32 ∨ (Rect.block (s := S16x1x4) S1x1x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8192x132.size a ≤ S16x8192x132.size a
  hwx0_6 : ∀ i : grid0.Coords, EltTy.bits .f32 = 32 ∨ (Rect.block (s := S16x8192x132) S1x8192x132.size (cc0_transform_6 i) (hinb0_6 i)).WholeWords (EltTy.packing .f32)

variable [Facts₀]

def dot_S8192x128_S128x4_S8192x4_1_0_0_1_n_n : DotDims S8192x128 S128x4 S8192x4 where
  lhsContracting := [1]
  rhsContracting := [0]
  lhsNonContracting := [0]
  rhsNonContracting := [1]
  lhsBatch := []
  rhsBatch := []
  wf := dot_S8192x128_S128x4_S8192x4_1_0_0_1_n_n_wf

abbrev win0_0 : Pipeline.Window sig grid0 :=
  Pipeline.Window.ofSpec (Memref.whole main_arg0) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1x4.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x8192x132.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x8192x128 : Shape := ⟨3, ![16, 8192, 128]⟩
abbrev S16x8192 : Shape := ⟨2, ![16, 8192]⟩
abbrev S16x128 : Shape := ⟨2, ![16, 128]⟩
abbrev S16x128x4 : Shape := ⟨3, ![16, 128, 4]⟩
abbrev S16x4 : Shape := ⟨2, ![16, 4]⟩
abbrev S16x8192x1 : Shape := ⟨3, ![16, 8192, 1]⟩
abbrev S16x1x128 : Shape := ⟨3, ![16, 1, 128]⟩
abbrev S_ : Shape := ⟨0, ![]⟩
abbrev S16x8192x4 : Shape := ⟨3, ![16, 8192, 4]⟩
abbrev S16x1x4 : Shape := ⟨3, ![16, 1, 4]⟩
abbrev S16x8192x132 : Shape := ⟨3, ![16, 8192, 132]⟩

abbrev nBuf : Space → Nat
  | .hbm => 52
  | .vmem => 0
  | .smem => 0
  | _ => 0

abbrev bufTy : (tb : Table) → Fin (tcTables nBuf tb) → BufTy
  | .hbm, ⟨0, _⟩ => ⟨S16x8192x128, .f32⟩
  | .hbm, ⟨1, _⟩ => ⟨S16x8192, .f32⟩
  | .hbm, ⟨2, _⟩ => ⟨S16x128, .f32⟩
  | .hbm, ⟨3, _⟩ => ⟨S16x128, .f32⟩
  | .hbm, ⟨4, _⟩ => ⟨S16x128x4, .f32⟩
  | .hbm, ⟨5, _⟩ => ⟨S16x4, .f32⟩
  | .hbm, ⟨6, _⟩ => ⟨S16x8192x1, .f32⟩
  | .hbm, ⟨7, _⟩ => ⟨S16x1x128, .f32⟩
  | .hbm, ⟨8, _⟩ => ⟨S16x1x128, .f32⟩
  | .hbm, ⟨9, _⟩ => ⟨S16x8192x128, .f32⟩
  | .hbm, ⟨10, _⟩ => ⟨S_, .f32⟩
  | .hbm, ⟨11, _⟩ => ⟨S16x8192x128, .f32⟩
  | .hbm, ⟨12, _⟩ => ⟨S16x8192x128, .f32⟩
  | .hbm, ⟨13, _⟩ => ⟨S16x8192x128, .f32⟩
  | .hbm, ⟨14, _⟩ => ⟨S16x8192x128, .f32⟩
  | .hbm, ⟨15, _⟩ => ⟨S16x8192x128, .f32⟩
  | .hbm, ⟨16, _⟩ => ⟨S16x8192x4, .f32⟩
  | .hbm, ⟨17, _⟩ => ⟨S16x8192x128, .f32⟩
  | .hbm, ⟨18, _⟩ => ⟨S_, .f32⟩
  | .hbm, ⟨19, _⟩ => ⟨S16x8192, .f32⟩
  | .hbm, ⟨20, _⟩ => ⟨S16x8192x1, .f32⟩
  | .hbm, ⟨21, _⟩ => ⟨S16x8192x1, .f32⟩
  | .hbm, ⟨22, _⟩ => ⟨S16x128x4, .f32⟩
  | .hbm, ⟨23, _⟩ => ⟨S_, .f32⟩
  | .hbm, ⟨24, _⟩ => ⟨S16x4, .f32⟩
  | .hbm, ⟨25, _⟩ => ⟨S16x1x4, .f32⟩
  | .hbm, ⟨26, _⟩ => ⟨S16x1x4, .f32⟩
  | .hbm, ⟨27, _⟩ => ⟨S16x8192x4, .f32⟩
  | .hbm, ⟨28, _⟩ => ⟨S16x8192x4, .f32⟩
  | .hbm, ⟨29, _⟩ => ⟨S16x8192x4, .f32⟩
  | .hbm, ⟨30, _⟩ => ⟨S_, .f32⟩
  | .hbm, ⟨31, _⟩ => ⟨S16x8192x4, .f32⟩
  | .hbm, ⟨32, _⟩ => ⟨S16x8192x4, .f32⟩
  | .hbm, ⟨33, _⟩ => ⟨S16x8192x4, .f32⟩
  | .hbm, ⟨34, _⟩ => ⟨S16x1x4, .f32⟩
  | .hbm, ⟨35, _⟩ => ⟨S16x8192x4, .f32⟩
  | .hbm, ⟨36, _⟩ => ⟨S16x8192x4, .f32⟩
  | .hbm, ⟨37, _⟩ => ⟨S_, .f32⟩
  | .hbm, ⟨38, _⟩ => ⟨S16x4, .f32⟩
  | .hbm, ⟨39, _⟩ => ⟨S_, .f32⟩
  | .hbm, ⟨40, _⟩ => ⟨S16x4, .f32⟩
  | .hbm, ⟨41, _⟩ => ⟨S16x4, .f32⟩
  | .hbm, ⟨42, _⟩ => ⟨S16x1x4, .f32⟩
  | .hbm, ⟨43, _⟩ => ⟨S16x8192x4, .f32⟩
  | .hbm, ⟨44, _⟩ => ⟨S16x8192x4, .f32⟩
  | .hbm, ⟨45, _⟩ => ⟨S16x8192x4, .f32⟩
  | .hbm, ⟨46, _⟩ => ⟨S_, .f32⟩
  | .hbm, ⟨47, _⟩ => ⟨S16x4, .f32⟩
  | .hbm, ⟨48, _⟩ => ⟨S16x1x4, .f32⟩
  | .hbm, ⟨49, _⟩ => ⟨S16x8192x4, .f32⟩
  | .hbm, ⟨50, _⟩ => ⟨S16x8192x4, .f32⟩
  | .hbm, ⟨51, _⟩ => ⟨S16x8192x132, .f32⟩
  | _, _ => ⟨S16x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v10 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  bcast_S16x8192_S16x8192x1_0_1 : S16x8192.BroadcastsInDim S16x8192x1 (![0, 1] : Fin 2 → Fin S16x8192x1.rank)
  bcast_S16x128_S16x1x128_0_2 : S16x128.BroadcastsInDim S16x1x128 (![0, 2] : Fin 2 → Fin S16x1x128.rank)
  bcast_S_S16x8192x128 : S_.BroadcastsInDim S16x8192x128 (![] : Fin 0 → Fin S16x8192x128.rank)
  reducesTo_S16x8192x128_S16x8192_d2 : S16x8192x128.ReducesTo [2] S16x8192
  h_S_ : 0 < S_.numel
  reducesTo_S16x128x4_S16x4_d1 : S16x128x4.ReducesTo [1] S16x4
  bcast_S16x4_S16x1x4_0_2 : S16x4.BroadcastsInDim S16x1x4 (![0, 2] : Fin 2 → Fin S16x1x4.rank)
  bcast_S16x8192x1_S16x8192x4_0_1_2 : S16x8192x1.BroadcastsInDim S16x8192x4 (![0, 1, 2] : Fin 3 → Fin S16x8192x4.rank)
  bcast_S16x1x4_S16x8192x4_0_1_2 : S16x1x4.BroadcastsInDim S16x8192x4 (![0, 1, 2] : Fin 3 → Fin S16x8192x4.rank)
  bcast_S_S16x8192x4 : S_.BroadcastsInDim S16x8192x4 (![] : Fin 0 → Fin S16x8192x4.rank)
  reducesTo_S16x8192x4_S16x4_d1 : S16x8192x4.ReducesTo [1] S16x4
  bcast_S_S16x4 : S_.BroadcastsInDim S16x4 (![] : Fin 0 → Fin S16x4.rank)
  concatenates_S16x8192x128_S16x8192x4_S16x8192x132_d2 : Shape.Concatenates [S16x8192x128, S16x8192x4] S16x8192x132 2
  dot_S16x8192x1_S16x1x128_S16x8192x128_2_1_1_2_0_0_wf : DotDims.WF S16x8192x1 S16x1x128 S16x8192x128 [2] [1] [1] [2] [0] [0]
  dot_S16x8192x128_S16x128x4_S16x8192x4_2_1_1_2_0_0_wf : DotDims.WF S16x8192x128 S16x128x4 S16x8192x4 [2] [1] [1] [2] [0] [0]

variable [Facts₀]

def dot_S16x8192x1_S16x1x128_S16x8192x128_2_1_1_2_0_0 : DotDims S16x8192x1 S16x1x128 S16x8192x128 where
  lhsContracting := [2]
  rhsContracting := [1]
  lhsNonContracting := [1]
  rhsNonContracting := [2]
  lhsBatch := [0]
  rhsBatch := [0]
  wf := dot_S16x8192x1_S16x1x128_S16x8192x128_2_1_1_2_0_0_wf
def dot_S16x8192x128_S16x128x4_S16x8192x4_2_1_1_2_0_0 : DotDims S16x8192x128 S16x128x4 S16x8192x4 where
  lhsContracting := [2]
  rhsContracting := [1]
  lhsNonContracting := [1]
  rhsNonContracting := [2]
  lhsBatch := [0]
  rhsBatch := [0]
  wf := dot_S16x8192x128_S16x128x4_S16x8192x4_2_1_1_2_0_0_wf

class Facts : Prop extends Facts₀ where

variable [Facts]
-- ==== Proof.Spec.lean ====
/-
  One step of an addressable memory, as mathematics on the extended reals.

  A memory of 16 batches, 8192 slots and 128 features is first UPDATED slot by slot: slot s of batch b keeps
  m and receives the rank-one correction  w (a - m e),  where w is the slot's write weight, a the batch's write
  vector and e its erase vector.  Arranged the other way the same update reads  m (1 - w e) + w a;  the two
  arrangements are one number whenever m, w, a, e are real (distributivity, which fails at the infinities).

  The updated memory is then ADDRESSED by content against four keys per batch: the score of slot s for key h is the
  cosine-like quotient  <u_s, k_h> / (|u_s| |k_h| + eps)  scaled by the key's strength, and the slot's weight is the
  softmax of the scores down the 8192 slots of the batch (each score less the column's maximum, exponentiated,
  divided by the column's sum of exponentials).

  The result packs, for each slot, its 128 updated features followed by its 4 weights: 132 numbers.

  Everything after the update is stated over an ARBITRARY updated memory U, so that two programs that agree on U and
  apply these same operations agree on the packed result without any algebra on quotients, roots or exponentials.
-/
import Idealize.ShloMosaic.PureOps.Ideal
import Idealize.ShloMosaic.PureOps.Ideal.Laws
import Idealize.ShloMosaic.Lib.ValueIdx

noncomputable section

namespace Cert.MemStep

open Idealize.ShloMosaic Idealize.ShloMosaic.ValueIdx

/-- The argument arrays and the result, as functions of an array index into the extended reals. -/
abbrev Mem := (⟨3, ![16, 8192, 128]⟩ : Shape).Idx → EReal
abbrev Wts := (⟨2, ![16, 8192]⟩ : Shape).Idx → EReal
abbrev Vecs := (⟨2, ![16, 128]⟩ : Shape).Idx → EReal
abbrev Keys := (⟨3, ![16, 128, 4]⟩ : Shape).Idx → EReal
abbrev Strs := (⟨2, ![16, 4]⟩ : Shape).Idx → EReal
abbrev Out := (⟨3, ![16, 8192, 132]⟩ : Shape).Idx → EReal

/-- An updated memory and a table of scores, by coordinates (batch, slot, feature or key). -/
abbrev Cube := Fin 16 → Fin 8192 → Fin 128 → EReal
abbrev Scores := Fin 16 → Fin 8192 → Fin 4 → EReal

/-- The three float literals of the computation, as the patterns both programs spell: 1, the guard added to the
    product of norms, and minus infinity (where a maximum starts). They are never evaluated except 1. -/
def one : EReal := Ideal.ofBits .f32 0x3F800000#32
def eps : EReal := Ideal.ofBits .f32 0x322BCC77#32
def negInf : EReal := Ideal.ofBits .f32 0xFF800000#32

theorem one_eq : one = 1 := by
  unfold one
  simp [Ideal.ofBits, Ideal.ieee, -EReal.coe_mul]; norm_num

/-- The update, as  m + w (a - m e). -/
def updated (M : Mem) (W : Wts) (A E : Vecs) : Cube := fun b s d =>
  M (ix3 b s d) + W (ix2 b s) * (A (ix2 b d) - M (ix3 b s d) * E (ix2 b d))

/-- The update, as  m (1 - w e) + w a. -/
def updatedRef (M : Mem) (W : Wts) (A E : Vecs) : Cube := fun b s d =>
  M (ix3 b s d) * (one - W (ix2 b s) * E (ix2 b d)) + W (ix2 b s) * A (ix2 b d)

/-- On real entries the two arrangements of the update are one number. -/
theorem updatedRef_eq (M : Mem) (W : Wts) (A E : Vecs) (hM : ∀ i, ∃ r : ℝ, M i = (r : EReal))
    (hW : ∀ i, ∃ r : ℝ, W i = (r : EReal)) (hA : ∀ i, ∃ r : ℝ, A i = (r : EReal)) (hE : ∀ i, ∃ r : ℝ, E i = (r : EReal)) :
    updatedRef M W A E = updated M W A E := by
  funext b s d
  obtain ⟨m, hm⟩ := hM (ix3 b s d)
  obtain ⟨w, hw⟩ := hW (ix2 b s)
  obtain ⟨a, ha⟩ := hA (ix2 b d)
  obtain ⟨e, he⟩ := hE (ix2 b d)
  simp only [updatedRef, updated, hm, hw, ha, he, one_eq]
  have h : ((m * (1 - w * e) + w * a : ℝ) : EReal) = ((m + w * (a - m * e) : ℝ) : EReal) := by
    congr 1; ring
  simpa only [EReal.coe_add, EReal.coe_mul, EReal.coe_sub, EReal.coe_one] using h

/-- The score of slot s against key h: the inner product over the norms' product plus the guard, times the strength. -/
def scores (U : Cube) (K : Keys) (T : Strs) : Scores := fun b s h =>
  Ideal.div (∑ d : Fin 128, U b s d * K (ix3 b d h))
      (Ideal.sqrt (∑ d : Fin 128, U b s d * U b s d) * Ideal.sqrt (∑ d : Fin 128, K (ix3 b d h) * K (ix3 b d h)) + eps)
    * T (ix2 b h)

/-- A column's maximum down the slots, starting from minus infinity. -/
def colMax (X : Scores) (b : Fin 16) (h : Fin 4) : EReal :=
  (Finset.univ : Finset (Fin 8192)).fold max negInf (fun s => X b s h)

/-- The softmax down the slots. -/
def weights (X : Scores) : Scores := fun b s h =>
  Ideal.div (Ideal.exp (X b s h - colMax X b h)) (∑ s' : Fin 8192, Ideal.exp (X b s' h - colMax X b h))

/-- The packed result: features first, weights after. -/
def packed (U : Cube) (K : Keys) (T : Strs) : Out := fun i =>
  if h : (i 2).val < 128 then U (i 0) (i 1) ⟨(i 2).val, h⟩
  else weights (scores U K T) (i 0) (i 1) ⟨(i 2).val - 128, by have := (show (i 2).val < 132 from (i 2).isLt); omega⟩

/-- Taking the maximum with the starting value once more changes nothing. -/
theorem max_start_fold (f : Fin 8192 → EReal) :
    max negInf ((Finset.univ : Finset (Fin 8192)).fold max negInf f) = (Finset.univ : Finset (Fin 8192)).fold max negInf f :=
  max_eq_right ((Finset.le_fold_max _).mpr (Or.inl le_rfl))

end Cert.MemStep

end
-- ==== Proof.Finite.lean ====
/-
  From the precondition to real entries.

  The precondition says of each float argument array that every entry's absolute value is below plus infinity, all six
  statements joined by "and".  On the extended reals an entry with |x| < +inf is neither infinity, so it is a real
  number.  Only the four arrays the memory update multiplies out (memory, write weights, write vector, erase vector)
  are needed as reals; the keys and strengths enter both programs through the same operations and are never opened.
-/
import proofs.«135158_g49417893707927_cont_8to1c4_680_4_alg».proof.Pre_finite_inputs
import proofs.«135158_g49417893707927_cont_8to1c4_680_4_alg».proof.Proof.Gen.Pre_finite_inputs
import Idealize.ShloMosaic.Lib.ReduceAll
import Idealize.ShloMosaic.Lib.ValueIdx
import Idealize.ShloMosaic.PureOps.Ideal.Laws

noncomputable section

namespace Cert.MemStep.Finite

open Idealize.ShloMosaic Cert.Pre_finite_inputs

/-- The shape of a scalar has one index. -/
instance : Subsingleton S_.Idx := ⟨fun a b => funext fun d => d.elim0⟩

/-- An extended real whose absolute value compares below plus infinity is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x with
  | bot => simp [Ideal.cmp] at h
  | coe r => exact ⟨r, rfl⟩
  | top => simp [Ideal.cmp] at h

/-- Under the precondition the memory, the write weights, the write vector and the erase vector have real entries. -/
theorem entries_real (M : FVec Ideal S16x8192x128 .f32) (W : FVec Ideal S16x8192 .f32) (A E : FVec Ideal S16x128 .f32)
    (K : FVec Ideal S16x128x4 .f32) (T : FVec Ideal S16x4 .f32) (h : fn (F := Ideal) M W A E K T = fun _ => 1#1) :
    (∀ i, ∃ r : ℝ, M i = (r : EReal)) ∧ (∀ i, ∃ r : ℝ, W i = (r : EReal)) ∧ (∀ i, ∃ r : ℝ, A i = (r : EReal))
      ∧ (∀ i, ∃ r : ℝ, E i = (r : EReal)) := by
  have h0 := congrFun h ValueIdx.ix0
  unfold fn fn_part1 at h0
  dsimp only at h0
  obtain ⟨h5, hT⟩ := IntOp.andi_eq_one.1 h0
  obtain ⟨h4, hK⟩ := IntOp.andi_eq_one.1 h5
  obtain ⟨h3, hE⟩ := IntOp.andi_eq_one.1 h4
  obtain ⟨h2, hA⟩ := IntOp.andi_eq_one.1 h3
  obtain ⟨hM, hW⟩ := IntOp.andi_eq_one.1 h2
  refine ⟨fun i => ?_, fun i => ?_, fun i => ?_, fun i => ?_⟩
  · exact real_of_abs_lt_inf (M i) (Host.reduce_andi_all _ _ _ _ _ hM i)
  · exact real_of_abs_lt_inf (W i) (Host.reduce_andi_all _ _ _ _ _ hW i)
  · exact real_of_abs_lt_inf (A i) (Host.reduce_andi_all _ _ _ _ _ hA i)
  · exact real_of_abs_lt_inf (E i) (Host.reduce_andi_all _ _ _ _ _ hE i)

end Cert.MemStep.Finite

end
-- ==== Proof.RefValue.lean ====
/-
  What the reference computes, entry by entry.

  The reference updates the whole memory at once in the arrangement  m (1 - w e) + w a  (its two outer products
  contract an axis of extent one, so each is a single product), takes the inner products of every updated slot
  with the batch's four keys, the two norms as square roots of sums of squares started from zero, the guarded
  quotient times the strength, the maximum down the slots started from minus infinity (and joined once more with
  minus infinity), the exponentials of the differences, their sum started from zero, the quotient, and joins the
  updated memory and the weights along the last axis.  Read one operation at a time, this is the packed result of
  the specification over the reference's updated memory.
-/
import proofs.«135158_g49417893707927_cont_8to1c4_680_4_alg».proof.Proof.RefRead
import proofs.«135158_g49417893707927_cont_8to1c4_680_4_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.MemStep.Ref

open Idealize.ShloMosaic Idealize.ShloMosaic.ValueIdx Cert.ReferenceIdeal Cert.ReferenceIdeal.Gen Cert.ReferenceIdeal.ReadP Cert.MemStep

/-- An index of a matrix with given coordinates, and of a three-axis array. -/
theorem idx2_eq {n0 n1 : Nat} (j : (⟨2, ![n0, n1]⟩ : Shape).Idx) (a : Fin n0) (b : Fin n1) (h0 : (j 0).val = a.val)
    (h1 : (j 1).val = b.val) : j = ix2 a b :=
  funext fun c => Fin.ext (by match c with | ⟨0, _⟩ => exact h0 | ⟨1, _⟩ => exact h1)
theorem idx3_eq {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun e => Fin.ext (by match e with | ⟨0, _⟩ => exact h0 | ⟨1, _⟩ => exact h1 | ⟨2, _⟩ => exact h2)

variable (x0 : Mem) (x1 : Wts) (x2 x3 : Vecs) (x4 : Keys) (x5 : Strs)

/-- The reference's updated memory by coordinates. -/
abbrev refCube : Cube := fun b s d => val_main_v8 (F := Ideal) x0 x1 x2 x3 (ix3 b s d)

/-- It is the update in the arrangement  m (1 - w e) + w a. -/
theorem refCube_eq : refCube x0 x1 x2 x3 = updatedRef x0 x1 x2 x3 := by
  funext b s d
  show val_main_v8 (F := Ideal) x0 x1 x2 x3 (ix3 b s d) = _
  rw [val_main_v8_apply, val_main_v6_apply, val_main_v5_apply, val_main_v4_apply, val_main_cst_apply, val_main_v3_apply,
    val_main_v7_apply]
  simp only [Fin.sum_univ_one, val_main_v0_apply, val_main_v1_apply, val_main_v2_apply]
  have e0 : idx_main_v0 (lidx_main_v3 (ix3 b s d) 0) = ix2 b s := idx2_eq _ _ _ rfl rfl
  have e1 : idx_main_v2 (ridx_main_v3 (ix3 b s d) 0) = ix2 b d := idx2_eq _ _ _ rfl rfl
  have e2 : idx_main_v0 (lidx_main_v7 (ix3 b s d) 0) = ix2 b s := idx2_eq _ _ _ rfl rfl
  have e3 : idx_main_v1 (ridx_main_v7 (ix3 b s d) 0) = ix2 b d := idx2_eq _ _ _ rfl rfl
  simp only [e0, e1, e2, e3]
  rfl

/-- The inner product of an updated slot with a key. -/
theorem ref_dot (b : Fin 16) (s : Fin 8192) (h : Fin 4) :
    val_main_v9 (F := Ideal) x0 x1 x2 x3 x4 (ix3 b s h) = ∑ d : Fin 128, refCube x0 x1 x2 x3 b s d * x4 (ix3 b d h) := by
  rw [val_main_v9_apply]
  refine Finset.sum_congr rfl fun d _ => ?_
  have el : lidx_main_v9 (ix3 b s h) d = ix3 b s d := idx3_eq _ _ _ _ rfl rfl rfl
  have er : ridx_main_v9 (ix3 b s h) d = ix3 b d h := idx3_eq _ _ _ _ rfl rfl rfl
  rw [el, er]

/-- The norm of an updated slot. -/
theorem ref_slot_norm (b : Fin 16) (s : Fin 8192) (u : Fin 1) :
    val_main_v10 (F := Ideal) x0 x1 x2 x3 (ix3 b s u)
      = Ideal.sqrt (∑ d : Fin 128, refCube x0 x1 x2 x3 b s d * refCube x0 x1 x2 x3 b s d) := by
  rw [val_main_v10_apply, val_main_call0_v2_apply, val_main_call0_v1_apply, val_main_call0_cst_apply]
  simp only [val_main_call0_v0_apply, Ideal.hostUnary_sqrt_def, Ideal.ofBits_def, Ideal.ofBits_zero_f32, zero_add, Ideal.mulf_def]
  refine congrArg Ideal.sqrt (Finset.sum_congr rfl fun d _ => ?_)
  have e : idx_main_call0_v1 (idx_main_call0_v2 (ix3 b s u)) d = ix3 b s d := idx3_eq _ _ _ _ rfl rfl rfl
  rw [e]

/-- The norm of a key. -/
theorem ref_key_norm (b : Fin 16) (u : Fin 1) (h : Fin 4) :
    val_main_v11 (F := Ideal) x4 (ix3 b u h) = Ideal.sqrt (∑ d : Fin 128, x4 (ix3 b d h) * x4 (ix3 b d h)) := by
  rw [val_main_v11_apply, val_main_call1_v2_apply, val_main_call1_v1_apply, val_main_call1_cst_apply]
  simp only [val_main_call1_v0_apply, Ideal.hostUnary_sqrt_def, Ideal.ofBits_def, Ideal.ofBits_zero_f32, zero_add, Ideal.mulf_def]
  refine congrArg Ideal.sqrt (Finset.sum_congr rfl fun d _ => ?_)
  have e : idx_main_call1_v1 (idx_main_call1_v2 (ix3 b u h)) d = ix3 b d h := idx3_eq _ _ _ _ rfl rfl rfl
  rw [e]

/-- The reference's scores. -/
theorem ref_scores (b : Fin 16) (s : Fin 8192) (h : Fin 4) :
    val_main_v20 (F := Ideal) x0 x1 x2 x3 x4 x5 (ix3 b s h) = scores (refCube x0 x1 x2 x3) x4 x5 b s h := by
  rw [val_main_v20_apply, val_main_v17_apply, val_main_v16_apply, val_main_v15_apply, val_main_cst_0_apply, val_main_v14_apply,
    val_main_v12_apply, val_main_v13_apply, val_main_v19_apply, val_main_v18_apply]
  have e12 : idx_main_v12 (ix3 b s h) = ix3 b s (0 : Fin 1) := idx3_eq _ _ _ _ rfl rfl rfl
  have e13 : idx_main_v13 (ix3 b s h) = ix3 b (0 : Fin 1) h := idx3_eq _ _ _ _ rfl rfl rfl
  have e18 : idx_main_v18 (idx_main_v19 (ix3 b s h)) = ix2 b h := idx2_eq _ _ _ rfl rfl
  rw [e12, e13, e18, ref_dot, ref_slot_norm, ref_key_norm]
  rfl

/-- The reference's column maximum: the fold from minus infinity, joined once more with minus infinity. -/
theorem ref_colmax (b : Fin 16) (h : Fin 4) :
    val_main_v23 (F := Ideal) x0 x1 x2 x3 x4 x5 (ix2 b h) = colMax (scores (refCube x0 x1 x2 x3) x4 x5) b h := by
  have hR : S16x8192x4.Reduces [1] S16x4 := by decide
  rw [val_main_v23_apply, val_main_v22_apply, val_main_cst_2_apply]
  unfold val_main_v21
  rw [Host.reduce_eq_fold_single FloatOps.maximumf _ _ reducesTo_S16x8192x4_S16x4_d1 hR h_S_]
  have hf : (val_main_v20 (F := Ideal) x0 x1 x2 x3 x4 x5 ∘ hR.lift (ix2 b h))
      = fun s : Fin 8192 => scores (refCube x0 x1 x2 x3) x4 x5 b s h :=
    funext fun k => by
      have e : hR.lift (ix2 b h) k = ix3 b k h := idx3_eq _ _ _ _ rfl rfl rfl
      show val_main_v20 (F := Ideal) x0 x1 x2 x3 x4 x5 (hR.lift (ix2 b h) k) = _
      rw [e]; exact ref_scores x0 x1 x2 x3 x4 x5 b k h
  rw [hf]
  exact max_start_fold _

/-- The exponential of a score less its column's maximum. -/
theorem ref_exp (b : Fin 16) (s : Fin 8192) (h : Fin 4) :
    val_main_v27 (F := Ideal) x0 x1 x2 x3 x4 x5 (ix3 b s h)
      = Ideal.exp (scores (refCube x0 x1 x2 x3) x4 x5 b s h - colMax (scores (refCube x0 x1 x2 x3) x4 x5) b h) := by
  rw [val_main_v27_apply, val_main_v26_apply, val_main_v25_apply, val_main_v24_apply]
  have e25 : idx_main_v24 (idx_main_v25 (ix3 b s h)) = ix2 b h := idx2_eq _ _ _ rfl rfl
  rw [e25, ref_colmax, ref_scores]
  rfl

/-- The reference's weights. -/
theorem ref_weights (b : Fin 16) (s : Fin 8192) (h : Fin 4) :
    val_main_v31 (F := Ideal) x0 x1 x2 x3 x4 x5 (ix3 b s h) = weights (scores (refCube x0 x1 x2 x3) x4 x5) b s h := by
  rw [val_main_v31_apply, val_main_v30_apply, val_main_v29_apply, val_main_v28_apply, val_main_cst_3_apply]
  have e30 : idx_main_v29 (idx_main_v30 (ix3 b s h)) = ix2 b h := idx2_eq _ _ _ rfl rfl
  rw [e30, ref_exp]
  have hs : ∑ k : Fin 8192, val_main_v27 (F := Ideal) x0 x1 x2 x3 x4 x5 (idx_main_v28 (ix2 b h) k)
      = ∑ k : Fin 8192, Ideal.exp (scores (refCube x0 x1 x2 x3) x4 x5 b k h - colMax (scores (refCube x0 x1 x2 x3) x4 x5) b h) :=
    Finset.sum_congr rfl fun k _ => by
      have e : idx_main_v28 (ix2 b h) k = ix3 b k h := idx3_eq _ _ _ _ rfl rfl rfl
      rw [e]; exact ref_exp x0 x1 x2 x3 x4 x5 b k h
  rw [hs]
  simp only [Ideal.ofBits_def, Ideal.ofBits_zero_f32, zero_add]
  rfl

/-- The reference's result is the packed result over its own updated memory. -/
theorem ref_packed : val_main_v32 (F := Ideal) x0 x1 x2 x3 x4 x5 = packed (refCube x0 x1 x2 x3) x4 x5 := by
  funext i
  unfold val_main_v32 packed
  have hi2 : (i 2).val < 132 := (i 2).isLt
  by_cases hlt : (i 2).val < 128
  · rw [dif_pos hlt]
    refine (concatenate_pair_apply_left (t := S16x8192x132) (s₁ := S16x8192x128) (s₂ := S16x8192x4) (2 : Fin 3)
      (val_main_v8 (F := Ideal) x0 x1 x2 x3) (val_main_v31 (F := Ideal) x0 x1 x2 x3 x4 x5)
      concatenates_S16x8192x128_S16x8192x4_S16x8192x132_d2 i rfl
      (ix3 (i 0) (i 1) (⟨(i 2).val, hlt⟩ : Fin 128)) (fun a => ?_)).trans ?_
    · match a with
      | ⟨0, _⟩ => rfl
      | ⟨1, _⟩ => rfl
      | ⟨2, _⟩ => rfl
    · rfl
  · rw [dif_neg hlt]
    refine (concatenate_pair_apply_right (t := S16x8192x132) (s₁ := S16x8192x128) (s₂ := S16x8192x4) (2 : Fin 3)
      (val_main_v8 (F := Ideal) x0 x1 x2 x3) (val_main_v31 (F := Ideal) x0 x1 x2 x3 x4 x5)
      concatenates_S16x8192x128_S16x8192x4_S16x8192x132_d2 i rfl rfl
      (ix3 (i 0) (i 1) (⟨(i 2).val - 128, by omega⟩ : Fin 4)) (fun a ha => ?_) ?_).trans ?_
    · match a with
      | ⟨0, _⟩ => rfl
      | ⟨1, _⟩ => rfl
      | ⟨2, _⟩ => exact absurd rfl ha
    · show (i 2).val - 128 + 128 = (i 2).val
      omega
    · exact ref_weights x0 x1 x2 x3 x4 x5 (i 0) (i 1) _

end Cert.MemStep.Ref

end
-- ==== Proof.LibPlainDot.lean ====
/-
  General facts about a matrix product of the plain kind, read at one entry on the extended reals.

  The product of an M x K left operand with a K x N right operand, no batch axis, the left contracted on its second
  axis and the right on its first, accumulated into the zero array: entry (a, j) is the sum over k of
  left (a, k) * right (k, j).  The contraction index of such a product has one axis, of extent K, and is re-indexed by
  its one coordinate; the operand indices at output (a, j) and contraction k are (a, k) and (k, j).

  A column [M, 1] broadcast along the second axis to [M, N] reads, at (a, j), the column's entry (a, 0).

  A record of dimension numbers printed with a program is this plain one whenever its six lists are
  [1], [0], [0], [1], [], [] (the seventh field is a proof), by reflexivity; the lemmas are stated for
  DotDims.plain M K N so that they serve every such record.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

/-- The left operand's row coordinate at output index j is j's row. -/
theorem plain_lhs_row (j : (⟨2, ![M, N]⟩ : Shape).Idx) (q : (DotDims.plain M K N).contr.Idx) :
    ((DotDims.plain M K N).lhsIdx j q 0).val = (j 0).val := rfl
/-- The left operand's column coordinate is the contraction index's one coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row coordinate is the contraction index's one coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- The right operand's column coordinate at output index j is j's column. -/
theorem plain_rhs_col (j : (⟨2, ![M, N]⟩ : Shape).Idx) (q : (DotDims.plain M K N).contr.Idx) :
    ((DotDims.plain M K N).rhsIdx j q 1).val = (j 1).val := rfl

/-- A plain matrix product into the zero accumulator, at entry (a, j): the sum over k of W (a, k) * X (k, j). -/
theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

/-- A column broadcast along the second axis reads the column's entry of the same row. -/
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.KernelBlock.lean ====
/-
  What the kernel's body computes from the six blocks it loads at one batch, entry by entry.

  At batch b the body holds the batch's memory block x0 [1, 8192, 128], its write weights x1 [1, 1, 8192], its write
  vector x2 and erase vector x3 [1, 1, 128], its keys x4 [1, 128, 4] and its strengths x5 [1, 1, 4].  Whenever these
  hold batch b of six arrays M, W, A, E, K, T, the body's first value is the updated memory of the batch in the
  arrangement  m + w (a - m e),  its second the scores of the batch's slots against the four keys, and what it stores
  after the features are the softmax weights of those scores down the slots.

  Each step reads one operation at an entry: a leading unit axis dropped or added, a row turned into a column, a row
  or a column spread over a matrix, a product of an [8192, 128] matrix with a [128, 4] one into the zero matrix as a
  sum over the 128 features, a sum along one axis as a sum over that axis's coordinates, a maximum along the slots
  as the fold of max from minus infinity.
-/
import proofs.«135158_g49417893707927_cont_8to1c4_680_4_alg».proof.Proof.Gen.KernelIdeal.Skeleton
import proofs.«135158_g49417893707927_cont_8to1c4_680_4_alg».proof.Proof.LibPlainDot
import proofs.«135158_g49417893707927_cont_8to1c4_680_4_alg».proof.Proof.Spec
import Idealize.ShloMosaic.Lib.ValueLayout
import Idealize.ShloMosaic.Lib.ValueIdx
import Idealize.ShloMosaic.Lib.Pipeline.Value
import Idealize.ShloMosaic.PureOps.Ideal.Laws

noncomputable section

namespace Cert.MemStep.Block

open Idealize.ShloMosaic Idealize.ShloMosaic.ValueIdx Cert.KernelIdeal Cert.KernelIdeal.Gen Cert.MemStep

/-! ## Layout operations of the body read at an entry -/

/-- A row [1, a] recast as a column [a, 1] reads, at (i, u), the row's entry i. -/
theorem row_as_col {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- A vector [a] recast as a column [a, 1] reads, at (i, u), the vector's entry i. -/
theorem vec_as_col {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A square root and an exponential of an array are taken entry by entry. -/
theorem sqrt_at {s : Shape} (v : FVec Ideal s .f32) (i : s.Idx) : sqrt v i = Ideal.sqrt (v i) := rfl
theorem exp_at {s : Shape} (v : FVec Ideal s .f32) (i : s.Idx) : exp v i = Ideal.exp (v i) := rfl

/-- The sum along the features of an [8192, 128] array, at slot s. -/
theorem sum_features (v : FVec Ideal S8192x128 .f32) (h : S8192x128.Reduces [1] S8192) (hφ : FKind.Formats .f32)
    (hacc : (0x00000000#32 : BitVec 32) = 0x00000000#32) (s : Fin 8192) :
    multiReduction .add [1] S8192 v 0x00000000#32 h hφ hacc (ix1 s) = ∑ d : Fin 128, v (ix2 s d) := by
  refine (Ideal.multiReduction_add_single v 0x00000000#32 h hφ hacc (ix1 s)).trans ?_
  refine Finset.sum_congr rfl fun k _ => ?_
  exact congrArg v (funext fun a => Fin.ext (by match a with | ⟨0, _⟩ => rfl | ⟨1, _⟩ => rfl))

/-- The sum along the features of a [128, 4] array, at key h. -/
theorem sum_key_features (v : FVec Ideal S128x4 .f32) (h : S128x4.Reduces [0] S4) (hφ : FKind.Formats .f32)
    (hacc : (0x00000000#32 : BitVec 32) = 0x00000000#32) (j : Fin 4) :
    multiReduction .add [0] S4 v 0x00000000#32 h hφ hacc (ix1 j) = ∑ d : Fin 128, v (ix2 d j) := by
  refine (Ideal.multiReduction_add_single v 0x00000000#32 h hφ hacc (ix1 j)).trans ?_
  refine Finset.sum_congr rfl fun k _ => ?_
  exact congrArg v (funext fun a => Fin.ext (by match a with | ⟨0, _⟩ => rfl | ⟨1, _⟩ => rfl))

/-- The sum down the slots of an [8192, 4] array, at key h. -/
theorem sum_slots (v : FVec Ideal S8192x4 .f32) (h : S8192x4.Reduces [0] S4) (hφ : FKind.Formats .f32)
    (hacc : (0x00000000#32 : BitVec 32) = 0x00000000#32) (j : Fin 4) :
    multiReduction .add [0] S4 v 0x00000000#32 h hφ hacc (ix1 j) = ∑ s : Fin 8192, v (ix2 s j) := by
  refine (Ideal.multiReduction_add_single v 0x00000000#32 h hφ hacc (ix1 j)).trans ?_
  refine Finset.sum_congr rfl fun k _ => ?_
  exact congrArg v (funext fun a => Fin.ext (by match a with | ⟨0, _⟩ => rfl | ⟨1, _⟩ => rfl))

/-- The maximum down the slots of an [8192, 4] array, at key h: the fold of max from minus infinity. -/
theorem max_slots (v : FVec Ideal S8192x4 .f32) (h : S8192x4.Reduces [0] S4) (hφ : FKind.Formats .f32)
    (hacc : (0xFF800000#32 : BitVec 32) = 0xFF800000#32) (j : Fin 4) :
    multiReduction .maximumf [0] S4 v 0xFF800000#32 h hφ hacc (ix1 j)
      = (Finset.univ : Finset (Fin 8192)).fold max negInf (fun s => v (ix2 s j)) := by
  refine (Ideal.multiReduction_maximumf_single v 0xFF800000#32 h hφ hacc (ix1 j)).trans ?_
  have hf : (v ∘ h.lift (ix1 j)) = fun s : Fin 8192 => v (ix2 s j) :=
    funext fun k => congrArg v (funext fun a => Fin.ext (by match a with | ⟨0, _⟩ => rfl | ⟨1, _⟩ => rfl))
  rw [hf]
  rfl

/-! ## The blocks hold one batch of the arrays -/

/-- The six blocks the body loads hold batch b of the six arrays. -/
structure Holds (b : Fin 16) (M : Mem) (W : Wts) (A E : Vecs) (K : Keys) (T : Strs)
    (x0 : Vec Ideal S1x8192x128 .f32) (x1 : Vec Ideal S1x1x8192 .f32) (x2 x3 : Vec Ideal S1x1x128 .f32)
    (x4 : Vec Ideal S1x128x4 .f32) (x5 : Vec Ideal S1x1x4 .f32) : Prop where
  mem : ∀ (s : Fin 8192) (d : Fin 128), x0 (ix3 (0 : Fin 1) s d) = M (ix3 b s d)
  wts : ∀ s : Fin 8192, x1 (ix3 (0 : Fin 1) (0 : Fin 1) s) = W (ix2 b s)
  add : ∀ d : Fin 128, x2 (ix3 (0 : Fin 1) (0 : Fin 1) d) = A (ix2 b d)
  ers : ∀ d : Fin 128, x3 (ix3 (0 : Fin 1) (0 : Fin 1) d) = E (ix2 b d)
  keys : ∀ (d : Fin 128) (h : Fin 4), x4 (ix3 (0 : Fin 1) d h) = K (ix3 b d h)
  str : ∀ h : Fin 4, x5 (ix3 (0 : Fin 1) (0 : Fin 1) h) = T (ix2 b h)

variable {b : Fin 16} {M : Mem} {W : Wts} {A E : Vecs} {K : Keys} {T : Strs}
  {x0 : Vec Ideal S1x8192x128 .f32} {x1 : Vec Ideal S1x1x8192 .f32} {x2 x3 : Vec Ideal S1x1x128 .f32}
  {x4 : Vec Ideal S1x128x4 .f32} {x5 : Vec Ideal S1x1x4 .f32}

/-- The body's first value is the batch's updated memory:  m + w (a - m e)  at every slot and feature. -/
theorem updated_at (H : Holds b M W A E K T x0 x1 x2 x3 x4 x5) (s : Fin 8192) (d : Fin 128) :
    k0_pay3 (F := Ideal) x0 x1 x2 x3 (ix2 s d) = updated M W A E b s d := by
  unfold k0_pay3
  simp only [addf_apply, mulf_apply, subf_apply, shapeCast_1ab_ab_apply, broadcastTo_1b_ab_apply,
    Cert.LibPlainDot.broadcast_col, row_as_col]
  rw [H.mem, H.wts, H.add, H.ers]
  rfl

/-- The body's second value is the batch's scores. -/
theorem scores_at (H : Holds b M W A E K T x0 x1 x2 x3 x4 x5) (s : Fin 8192) (h : Fin 4) :
    k0_pay4 (F := Ideal) x0 x1 x2 x3 x4 x5 (ix2 s h) = scores (updated M W A E) K T b s h := by
  unfold k0_pay4
  dsimp only
  have hm : matmul dot_S8192x128_S128x4_S8192x4_1_0_0_1_n_n none (k0_pay3 (F := Ideal) x0 x1 x2 x3)
      (shapeCast S128x4 x4 shapeCasts_S1x128x4_S128x4) (constant S8192x4 .f32 0x00000000#32) (ix2 s h)
        = ∑ d : Fin 128, k0_pay3 (F := Ideal) x0 x1 x2 x3 (ix2 s d) * shapeCast S128x4 x4 shapeCasts_S1x128x4_S128x4 (ix2 d h) :=
    Cert.LibPlainDot.matmul_plain_zero 8192 128 4 _ _ s h
  simp only [mulf_apply, divf_apply, addf_apply, broadcast_apply, broadcastTo_1b_ab_apply, Cert.LibPlainDot.broadcast_col,
    sqrt_at, vec_as_col, shapeCast_a_1a_apply, shapeCast_1ab_ab_apply]
  rw [hm, sum_features, sum_key_features]
  simp only [mulf_apply, shapeCast_1ab_ab_apply, updated_at H, H.keys, H.str]
  rfl

/-- The softmax down the slots of an [8192, 4] array whose column maxima are given, under a leading unit axis. -/
theorem softmax_given_max (v : FVec Ideal S8192x4 .f32) (mx : FVec Ideal S4 .f32) (X : Scores) (b : Fin 16)
    (hv : ∀ (s : Fin 8192) (h : Fin 4), v (ix2 s h) = X b s h) (hmx : ∀ h : Fin 4, mx (ix1 h) = colMax X b h)
    (h1 : S4.ShapeCasts S1x4) (h2 : S1x4.Broadcasts S8192x4) (h3 : S8192x4.ShapeCasts S1x8192x4)
    (hR : S8192x4.Reduces [0] S4) (hφ : FKind.Formats .f32) (hacc : (0x00000000#32 : BitVec 32) = 0x00000000#32)
    (u : Fin 1) (s : Fin 8192) (h : Fin 4) :
    shapeCast S1x8192x4 (divf (exp (subf v (broadcastTo S8192x4 (shapeCast S1x4 mx h1) h2)))
      (broadcastTo S8192x4 (shapeCast S1x4 (multiReduction .add [0] S4
        (exp (subf v (broadcastTo S8192x4 (shapeCast S1x4 mx h1) h2))) 0x00000000#32 hR hφ hacc) h1) h2)) h3 (ix3 u s h)
      = weights X b s h := by
  simp only [shapeCast_ab_1ab_apply, divf_apply, exp_at, subf_apply, broadcastTo_1b_ab_apply, shapeCast_a_1a_apply]
  rw [sum_slots]
  simp only [exp_at, subf_apply, broadcastTo_1b_ab_apply, shapeCast_a_1a_apply, hv, hmx]
  rfl

/-- What the body stores after the features: the softmax, down the slots, of its second value. -/
theorem weights_at (v : FVec Ideal S8192x4 .f32) (X : Scores) (b : Fin 16) (hv : ∀ (s : Fin 8192) (h : Fin 4), v (ix2 s h) = X b s h)
    (u : Fin 1) (s : Fin 8192) (h : Fin 4) : k0_pay2 (F := Ideal) v (ix3 u s h) = weights X b s h := by
  unfold k0_pay2
  refine softmax_given_max v _ X b hv (fun j => ?_) _ _ _ _ _ _ u s h
  refine (max_slots v _ _ _ j).trans ?_
  simp only [hv]
  rfl

/-- What the body stores first: its first value, under a leading unit axis. -/
theorem features_at (v : FVec Ideal S8192x128 .f32) (u : Fin 1) (s : Fin 8192) (d : Fin 128) :
    k0_pay1 (F := Ideal) v (ix3 u s d) = v (ix2 s d) := by
  unfold k0_pay1
  exact shapeCast_ab_1ab_apply v _ u s d

end Cert.MemStep.Block

end
-- ==== Proof.KernelPieces.lean ====
/-
  What the body leaves in its output block.

  The body stores twice into the [1, 8192, 132] block: the 128 feature columns from its first value, then the 4
  weight columns (columns 128 to 131) from the softmax of its second value.  The two rectangles tile the block, so
  whatever the block held before, it ends holding, at (0, s, j), feature j of slot s when j < 128 and weight j - 128
  of slot s otherwise.
-/
import proofs.«135158_g49417893707927_cont_8to1c4_680_4_alg».proof.Proof.Gen.KernelIdeal.Frame
import proofs.«135158_g49417893707927_cont_8to1c4_680_4_alg».proof.Proof.KernelBlock
import Idealize.ShloMosaic.Lib.Pipeline.Value

set_option maxRecDepth 16384

noncomputable section

namespace Cert.MemStep.Pieces

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.MemStep

/-- The block the body leaves, from the six blocks it loaded: features, then weights. -/
def blockOut (x0 : Vec Ideal S1x8192x128 .f32) (x1 : Vec Ideal S1x1x8192 .f32) (x2 x3 : Vec Ideal S1x1x128 .f32) (x4 : Vec Ideal S1x128x4 .f32) (x5 : Vec Ideal S1x1x4 .f32) : Vec Ideal S1x8192x132 .f32 := fun y =>
  if h : (y 2).val < 128 then k0_pay3 (F := Ideal) x0 x1 x2 x3 (ix2 (y 1) (⟨(y 2).val, h⟩ : Fin 128))
  else k0_pay2 (F := Ideal) (k0_pay4 (F := Ideal) x0 x1 x2 x3 x4 x5)
    (ix3 (0 : Fin 1) (y 1) (⟨(y 2).val - 128, by have := (show (y 2).val < 132 from (y 2).isLt); omega⟩ : Fin 4))

/-- At a feature column the block holds the body's first value. -/
theorem blockOut_features (x0 : Vec Ideal S1x8192x128 .f32) (x1 : Vec Ideal S1x1x8192 .f32) (x2 x3 : Vec Ideal S1x1x128 .f32) (x4 : Vec Ideal S1x128x4 .f32) (x5 : Vec Ideal S1x1x4 .f32) (y : S1x8192x132.Idx) (s : Fin 8192) (d : Fin 128)
    (h1 : (y 1).val = s.val) (h2 : (y 2).val = d.val) :
    blockOut x0 x1 x2 x3 x4 x5 y = k0_pay3 (F := Ideal) x0 x1 x2 x3 (ix2 s d) := by
  unfold blockOut
  rw [dif_pos (show (y 2).val < 128 by have := d.isLt; omega)]
  refine congrArg (k0_pay3 (F := Ideal) x0 x1 x2 x3) (funext fun a => Fin.ext ?_)
  match a with
  | ⟨0, _⟩ => exact h1
  | ⟨1, _⟩ => exact h2

/-- At a weight column the block holds the softmax of the body's second value. -/
theorem blockOut_weights (x0 : Vec Ideal S1x8192x128 .f32) (x1 : Vec Ideal S1x1x8192 .f32) (x2 x3 : Vec Ideal S1x1x128 .f32) (x4 : Vec Ideal S1x128x4 .f32) (x5 : Vec Ideal S1x1x4 .f32) (y : S1x8192x132.Idx) (u : Fin 1) (s : Fin 8192) (h : Fin 4)
    (h1 : (y 1).val = s.val) (h2 : (y 2).val = 128 + h.val) :
    blockOut x0 x1 x2 x3 x4 x5 y = k0_pay2 (F := Ideal) (k0_pay4 (F := Ideal) x0 x1 x2 x3 x4 x5) (ix3 u s h) := by
  unfold blockOut
  rw [dif_neg (show ¬ (y 2).val < 128 by omega)]
  refine congrArg (k0_pay2 (F := Ideal) (k0_pay4 (F := Ideal) x0 x1 x2 x3 x4 x5)) (funext fun a => Fin.ext ?_)
  match a with
  | ⟨0, _⟩ => show (0 : Nat) = u.val; omega
  | ⟨1, _⟩ => exact h1
  | ⟨2, _⟩ => show (y 2).val - 128 = h.val; omega

theorem zeros3 : (![0, 0, 0] : Fin 3 → Nat) = fun _ => 0 := funext fun a => by fin_cases a <;> rfl

/-- The run's pieces read back are that block. -/
theorem out_eq (c : Dev nD) (i : grid0.Coords) (arg1 : Memref sig .tc .vmem S1x8192x128 .f32) (harg1 : arg1.IsWhole) (arg2 : Memref sig .tc .vmem S1x1x8192 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x128x4 .f32) (harg5 : arg5.IsWhole) (arg6 : Memref sig .tc .vmem S1x1x4 .f32) (harg6 : arg6.IsWhole) (arg7 : Memref sig .tc .vmem S1x8192x132 .f32) (harg7 : arg7.IsWhole) (x0 : Vec Ideal S1x8192x128 .f32) (x1 : Vec Ideal S1x1x8192 .f32) (x2 x3 : Vec Ideal S1x1x128 .f32) (x4 : Vec Ideal S1x128x4 .f32) (x5 : Vec Ideal S1x1x4 .f32) :
    out0_A_6 (F := Ideal) c i arg1 harg1 arg2 harg2 arg3 harg3 arg4 harg4 arg5 harg5 arg6 harg6 arg7 harg7 x0 x1 x2 x3 x4 x5 = blockOut x0 x1 x2 x3 x4 x5 := by
  unfold out0_A_6
  rw [View.read_writes_eq_canon _ _ _ (cover0_A_6 c i arg1 harg1 arg2 harg2 arg3 harg3 arg4 harg4 arg5 harg5 arg6 harg6 arg7 harg7 x0 x1 x2 x3 x4 x5)]
  funext y
  refine View.canon_apply_of_pieces (blockOut x0 x1 x2 x3 x4 x5) _ ?_ y (cover0_A_6 c i arg1 harg1 arg2 harg2 arg3 harg3 arg4 harg4 arg5 harg5 arg6 harg6 arg7 harg7 x0 x1 x2 x3 x4 x5 y)
  unfold kernelRun0_A
  dsimp only
  sl_unfold_words
  simp only [View.readAt_eq_ld, harg1.read_unread, harg2.read_unread, harg3.read_unread, harg4.read_unread, harg5.read_unread,
    harg6.read_unread, View.ld_unit_zero (S := S1x8192x128) zeros3, View.ld_unit_zero (S := S1x1x8192) zeros3,
    View.ld_unit_zero (S := S1x1x128) zeros3, View.ld_unit_zero (S := S1x128x4) zeros3, View.ld_unit_zero (S := S1x1x4) zeros3]
  intro p hp
  simp only [List.mem_cons, List.not_mem_nil, or_false] at hp
  rcases hp with rfl | rfl
  · intro x
    obtain ⟨u, s, h, rfl⟩ : ∃ (u : Fin 1) (s : Fin 8192) (h : Fin 4), x = ix3 u s h := ⟨x 0, x 1, x 2, eq_ix3 x⟩
    exact (blockOut_weights x0 x1 x2 x3 x4 x5 _ u s h (by show 0 + 1 * s.val = s.val; omega)
      (by show 128 + 1 * h.val = 128 + h.val; omega)).symm
  · intro x
    obtain ⟨u, s, d, rfl⟩ : ∃ (u : Fin 1) (s : Fin 8192) (d : Fin 128), x = ix3 u s d := ⟨x 0, x 1, x 2, eq_ix3 x⟩
    refine (Cert.MemStep.Block.features_at (k0_pay3 (F := Ideal) x0 x1 x2 x3) u s d).trans ?_
    exact (blockOut_features x0 x1 x2 x3 x4 x5 _ s d (by show 0 + 1 * s.val = s.val; omega)
      (by show 0 + 1 * d.val = d.val; omega)).symm

end Cert.MemStep.Pieces

end
-- ==== Proof.KernelWhole.lean ====
/-
  From the blocks to the whole result array of the kernel.

  The grid has one point per batch.  At point t every window's block is batch t of its array: the memory and the keys
  are staged from the arguments themselves, the write weights, write vector, erase vector and strengths from copies
  the program makes first with a unit axis inserted.  So the six blocks the body loads at point t hold batch t of the
  six arguments, and what the point writes back is batch t of the packed result: the updated memory
  m + w (a - m e) in the first 128 columns and the softmax weights in the last 4.  The sixteen blocks tile the result
  array, so the array ends at the packed result, whole.
-/
import proofs.«135158_g49417893707927_cont_8to1c4_680_4_alg».proof.Proof.Gen.KernelIdeal.Value
import proofs.«135158_g49417893707927_cont_8to1c4_680_4_alg».proof.Proof.KernelPieces
import Idealize.ShloMosaic.Lib.Pipeline.Value
import Idealize.ShloMosaic.Lib.StableHlo.Run

set_option maxRecDepth 16384

noncomputable section

namespace Cert.MemStep.Whole

open Idealize.ShloMosaic Idealize.ShloMosaic.TcCoe Idealize.ShloMosaic.ValueIdx Idealize.SL.Sem Idealize.ShloMosaic.StableHlo
open Cert.KernelIdeal Cert.KernelIdeal.Gen Cert.KernelIdeal.Value Cert.MemStep
open Idealize.ShloMosaic.Pipeline (Dat)

/-! ## The packed result at an index of known coordinates -/

theorem packed_features (U : Cube) (K : Keys) (T : Strs) (i : (⟨3, ![16, 8192, 132]⟩ : Shape).Idx) (b : Fin 16) (s : Fin 8192)
    (d : Fin 128) (h0 : (i 0).val = b.val) (h1 : (i 1).val = s.val) (h2 : (i 2).val = d.val) : packed U K T i = U b s d := by
  have hlt : (i 2).val < 128 := by have := d.isLt; omega
  have e0 : (i 0 : Fin 16) = b := Fin.ext h0
  have e1 : (i 1 : Fin 8192) = s := Fin.ext h1
  unfold packed
  rw [dif_pos hlt]
  exact congr (congr (congrArg U e0) e1) (Fin.ext h2)

theorem packed_weights (U : Cube) (K : Keys) (T : Strs) (i : (⟨3, ![16, 8192, 132]⟩ : Shape).Idx) (b : Fin 16) (s : Fin 8192)
    (h : Fin 4) (h0 : (i 0).val = b.val) (h1 : (i 1).val = s.val) (h2 : (i 2).val = 128 + h.val) :
    packed U K T i = weights (scores U K T) b s h := by
  have hge : ¬ (i 2).val < 128 := by omega
  have e0 : (i 0 : Fin 16) = b := Fin.ext h0
  have e1 : (i 1 : Fin 8192) = s := Fin.ext h1
  unfold packed
  rw [dif_neg hge]
  exact congr (congr (congrArg (weights (scores U K T)) e0) e1) (Fin.ext (by show (i 2).val - 128 = h.val; omega))

variable (m : (ℓ : Loc nD τ sig) → Buf (Elt Ideal) ℓ) (ρ : Dev nD → PrngReg)

/-! ## The arguments and the result -/

/-- The six argument arrays as launched on device c. -/
abbrev argM (c : Dev nD) : Mem := m ((c : Thread nD τ).loc main_arg0)
abbrev argW (c : Dev nD) : Wts := m ((c : Thread nD τ).loc main_arg1)
abbrev argA (c : Dev nD) : Vecs := m ((c : Thread nD τ).loc main_arg2)
abbrev argE (c : Dev nD) : Vecs := m ((c : Thread nD τ).loc main_arg3)
abbrev argK (c : Dev nD) : Keys := m ((c : Thread nD τ).loc main_arg4)
abbrev argT (c : Dev nD) : Strs := m ((c : Thread nD τ).loc main_arg5)

/-- The kernel's result array: the packed result over the update in the arrangement m + w (a - m e). -/
def result (c : Dev nD) : Out :=
  packed (updated (argM m c) (argW m c) (argA m c) (argE m c)) (argK m c) (argT m c)

/-! ## The copies with a unit axis that the program stages -/

theorem staged_weights (c : Dev nD) : (V m c main_v0 : S16x1x8192.Idx → EReal)
    = broadcastInDim S16x1x8192 ![0, 2] bcast_S16x8192_S16x1x8192_0_2 (m ((c : Thread nD τ).loc main_arg1)) := by
  dsimp only [Gen.V, Gen.hostOps0]; after_results
theorem staged_write (c : Dev nD) : (V m c main_v1 : S16x1x128.Idx → EReal)
    = broadcastInDim S16x1x128 ![0, 2] bcast_S16x128_S16x1x128_0_2 (m ((c : Thread nD τ).loc main_arg2)) := by
  dsimp only [Gen.V, Gen.hostOps0]; after_results
theorem staged_erase (c : Dev nD) : (V m c main_v2 : S16x1x128.Idx → EReal)
    = broadcastInDim S16x1x128 ![0, 2] bcast_S16x128_S16x1x128_0_2 (m ((c : Thread nD τ).loc main_arg3)) := by
  dsimp only [Gen.V, Gen.hostOps0]; after_results
theorem staged_strengths (c : Dev nD) : (V m c main_v3 : S16x1x4.Idx → EReal)
    = broadcastInDim S16x1x4 ![0, 2] bcast_S16x4_S16x1x4_0_2 (m ((c : Thread nD τ).loc main_arg5)) := by
  dsimp only [Gen.V, Gen.hostOps0]; after_results

/-! ## Every window's block at point t is batch t -/

/-- The printed index maps, decided over the sixteen points: block index (t, 0, 0) for every window. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

/-- The batch a point works on. -/
def batch (t : Fin cfg0.N) : Fin 16 := ⟨t.val, lt_of_lt_of_eq t.isLt N_0⟩

/-- The six blocks at point t hold batch t of the six arguments. -/
theorem holds_at (c : Dev nD) (t : Fin cfg0.N) :
    Block.Holds (batch t) (argM m c) (argW m c) (argA m c) (argE m c) (argK m c) (argT m c) (iblk m c 0 t) (iblk m c 1 t) (iblk m c 2 t) (iblk m c 3 t) (iblk m c 4 t) (iblk m c 5 t) := by
  obtain ⟨⟨a0, a1, a2⟩, ⟨b0, b1, b2⟩, ⟨c0, c1, c2⟩, ⟨d0, d1, d2⟩, ⟨e0, e1, e2⟩, ⟨f0, f1, f2⟩, -⟩ := idx_facts t
  refine ⟨fun s d => ?_, fun s => ?_, fun d => ?_, fun d => ?_, fun d h => ?_, fun h => ?_⟩
  · show V m c main_arg0 (((cfg0.win 0).blk t).view.emb (ix3 (0 : Fin 1) s d)) = m ((c : Thread nD τ).loc main_arg0) (ix3 (batch t) s d)
    rw [V_main_arg0]
    refine congrArg (m ((c : Thread nD τ).loc main_arg0)) (funext fun a => Fin.ext ?_)
    match a with
    | ⟨0, _⟩ => show win0_0.index t (0 : Fin 3) * 1 + 1 * 0 = t.val; omega
    | ⟨1, _⟩ => show win0_0.index t (1 : Fin 3) * 8192 + 1 * s.val = s.val; omega
    | ⟨2, _⟩ => show win0_0.index t (2 : Fin 3) * 128 + 1 * d.val = d.val; omega
  · show V m c main_v0 (((cfg0.win 1).blk t).view.emb (ix3 (0 : Fin 1) (0 : Fin 1) s)) = m ((c : Thread nD τ).loc main_arg1) (ix2 (batch t) s)
    rw [staged_weights]
    refine broadcastInDim_apply _ bcast_S16x8192_S16x1x8192_0_2 _ _ (ix2 (batch t) s) (fun a => ?_)
    match a with
    | ⟨0, _⟩ => show t.val = if (16 : Nat) = 1 then 0 else win0_1.index t (0 : Fin 3) * 1 + 1 * 0; rw [if_neg (by decide)]; omega
    | ⟨1, _⟩ => show s.val = if (8192 : Nat) = 1 then 0 else win0_1.index t (2 : Fin 3) * 8192 + 1 * s.val; rw [if_neg (by decide)]; omega
  · show V m c main_v1 (((cfg0.win 2).blk t).view.emb (ix3 (0 : Fin 1) (0 : Fin 1) d)) = m ((c : Thread nD τ).loc main_arg2) (ix2 (batch t) d)
    rw [staged_write]
    refine broadcastInDim_apply _ bcast_S16x128_S16x1x128_0_2 _ _ (ix2 (batch t) d) (fun a => ?_)
    match a with
    | ⟨0, _⟩ => show t.val = if (16 : Nat) = 1 then 0 else win0_2.index t (0 : Fin 3) * 1 + 1 * 0; rw [if_neg (by decide)]; omega
    | ⟨1, _⟩ => show d.val = if (128 : Nat) = 1 then 0 else win0_2.index t (2 : Fin 3) * 128 + 1 * d.val; rw [if_neg (by decide)]; omega
  · show V m c main_v2 (((cfg0.win 3).blk t).view.emb (ix3 (0 : Fin 1) (0 : Fin 1) d)) = m ((c : Thread nD τ).loc main_arg3) (ix2 (batch t) d)
    rw [staged_erase]
    refine broadcastInDim_apply _ bcast_S16x128_S16x1x128_0_2 _ _ (ix2 (batch t) d) (fun a => ?_)
    match a with
    | ⟨0, _⟩ => show t.val = if (16 : Nat) = 1 then 0 else win0_3.index t (0 : Fin 3) * 1 + 1 * 0; rw [if_neg (by decide)]; omega
    | ⟨1, _⟩ => show d.val = if (128 : Nat) = 1 then 0 else win0_3.index t (2 : Fin 3) * 128 + 1 * d.val; rw [if_neg (by decide)]; omega
  · show V m c main_arg4 (((cfg0.win 4).blk t).view.emb (ix3 (0 : Fin 1) d h)) = m ((c : Thread nD τ).loc main_arg4) (ix3 (batch t) d h)
    rw [V_main_arg4]
    refine congrArg (m ((c : Thread nD τ).loc main_arg4)) (funext fun a => Fin.ext ?_)
    match a with
    | ⟨0, _⟩ => show win0_4.index t (0 : Fin 3) * 1 + 1 * 0 = t.val; omega
    | ⟨1, _⟩ => show win0_4.index t (1 : Fin 3) * 128 + 1 * d.val = d.val; omega
    | ⟨2, _⟩ => show win0_4.index t (2 : Fin 3) * 4 + 1 * h.val = h.val; omega
  · show V m c main_v3 (((cfg0.win 5).blk t).view.emb (ix3 (0 : Fin 1) (0 : Fin 1) h)) = m ((c : Thread nD τ).loc main_arg5) (ix2 (batch t) h)
    rw [staged_strengths]
    refine broadcastInDim_apply _ bcast_S16x4_S16x1x4_0_2 _ _ (ix2 (batch t) h) (fun a => ?_)
    match a with
    | ⟨0, _⟩ => show t.val = if (16 : Nat) = 1 then 0 else win0_5.index t (0 : Fin 3) * 1 + 1 * 0; rw [if_neg (by decide)]; omega
    | ⟨1, _⟩ => show h.val = if (4 : Nat) = 1 then 0 else win0_5.index t (2 : Fin 3) * 4 + 1 * h.val; rw [if_neg (by decide)]; omega

/-! ## What a point writes back, and the whole array -/

/-- The block the body leaves at point t, at (u, s, j), is the result at any index of batch t, slot s, column j. -/
theorem block_is_result (c : Dev nD) (t : Fin cfg0.N) (u : Fin 1) (s : Fin 8192) (j : Fin 132) (i : S16x8192x132.Idx)
    (q0 : (i 0).val = (batch t).val) (q1 : (i 1).val = s.val) (q2 : (i 2).val = j.val) :
    Pieces.blockOut (iblk m c 0 t) (iblk m c 1 t) (iblk m c 2 t) (iblk m c 3 t) (iblk m c 4 t) (iblk m c 5 t) (ix3 u s j) = result m c i := by
  have H := holds_at m c t
  unfold result
  by_cases hlt : j.val < 128
  · refine (Pieces.blockOut_features _ _ _ _ _ _ (ix3 u s j) s (⟨j.val, hlt⟩ : Fin 128) rfl rfl).trans ?_
    refine (Block.updated_at H s (⟨j.val, hlt⟩ : Fin 128)).trans ?_
    exact (packed_features _ _ _ i (batch t) s (⟨j.val, hlt⟩ : Fin 128) q0 q1 q2).symm
  · have hh : j.val - 128 < 4 := by have := j.isLt; omega
    refine (Pieces.blockOut_weights _ _ _ _ _ _ (ix3 u s j) u s (⟨j.val - 128, hh⟩ : Fin 4) rfl
      (by show j.val = 128 + (j.val - 128); omega)).trans ?_
    refine (Block.weights_at _ (scores (updated (argM m c) (argW m c) (argA m c) (argE m c)) (argK m c) (argT m c)) (batch t)
      (fun s h => Block.scores_at H s h) u s (⟨j.val - 128, hh⟩ : Fin 4)).trans ?_
    exact (packed_weights _ _ _ i (batch t) s (⟨j.val - 128, hh⟩ : Fin 4) q0 q1
      (by rw [q2]; show j.val = 128 + (j.val - 128); omega)).symm

/-- What point t writes back is block t of the result. -/
theorem flushed_eq (c : Dev nD) (t : Fin cfg0.N) :
    (dats m 0 c).flushed 6 t = ((cfg0.win 6).blk t).view.read (Elt Ideal) (result m c) := by
  have hout := Pieces.out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t)
  rw [flushed6_A, hout]
  obtain ⟨-, -, -, -, -, -, ⟨g0, g1, g2⟩⟩ := idx_facts t
  funext y
  obtain ⟨u, s, j, rfl⟩ : ∃ (u : Fin 1) (s : Fin 8192) (j : Fin 132), y = ix3 u s j := ⟨y 0, y 1, y 2, eq_ix3 y⟩
  show Pieces.blockOut (iblk m c 0 t) (iblk m c 1 t) (iblk m c 2 t) (iblk m c 3 t) (iblk m c 4 t) (iblk m c 5 t) (ix3 u s j) = result m c (((cfg0.win 6).blk t).view.emb (ix3 u s j))
  refine block_is_result m c t u s j _ ?_ ?_ ?_
  · show win0_6.index t (0 : Fin 3) * 1 + 1 * u.val = t.val
    have : u.val < 1 := u.isLt
    omega
  · show win0_6.index t (1 : Fin 3) * 8192 + 1 * s.val = s.val; omega
  · show win0_6.index t (2 : Fin 3) * 132 + 1 * j.val = j.val; omega

/-- An index of the result array is in point t's block iff each coordinate is in the block's range on its axis. -/
theorem mem_blk (t : Fin cfg0.N) (i : S16x8192x132.Idx) :
    i ∈ ((cfg0.win 6).blk t).view.set ↔ ∀ a : Fin 3, win0_6.index t a * S1x8192x132.size a ≤ (i a).val
      ∧ (i a).val < win0_6.index t a * S1x8192x132.size a + S1x8192x132.size a := by
  show i ∈ ((View.whole main_v4).slice (win0_6.rect t)).set ↔ _
  rw [View.set_slice_whole, Rect.mem_set_unit]
  exact Iff.rfl

/-- Every index of the result array is in the block of the point of its batch. -/
theorem cover (i : S16x8192x132.Idx) : ∃ t : Fin cfg0.N, (cfg0.win 6).flush t = true ∧ i ∈ ((cfg0.win 6).blk t).view.set := by
  have h0 : (i 0).val < 16 := (i 0).isLt
  have h1 : (i 1).val < 8192 := (i 1).isLt
  have h2 : (i 2).val < 132 := (i 2).isLt
  refine ⟨⟨(i 0).val, lt_of_lt_of_eq h0 N_0.symm⟩, flush0_6 _, ?_⟩
  rw [mem_blk]
  obtain ⟨-, -, -, -, -, -, ⟨g0, g1, g2⟩⟩ := idx_facts ⟨(i 0).val, lt_of_lt_of_eq h0 N_0.symm⟩
  intro a
  match a with
  | ⟨0, _⟩ =>
    show win0_6.index _ (0 : Fin 3) * 1 ≤ (i 0).val ∧ (i 0).val < win0_6.index _ (0 : Fin 3) * 1 + 1
    rw [g0]; show (i 0).val * 1 ≤ (i 0).val ∧ (i 0).val < (i 0).val * 1 + 1; omega
  | ⟨1, _⟩ =>
    show win0_6.index _ (1 : Fin 3) * 8192 ≤ (i 1).val ∧ (i 1).val < win0_6.index _ (1 : Fin 3) * 8192 + 8192
    rw [g1]; omega
  | ⟨2, _⟩ =>
    show win0_6.index _ (2 : Fin 3) * 132 ≤ (i 2).val ∧ (i 2).val < win0_6.index _ (2 : Fin 3) * 132 + 132
    rw [g2]; omega

/-- After the run the kernel's result array holds the packed result. -/
theorem final (c : Dev nD) : (dats m 0 c).arrAt 6 cfg0.N = result m c :=
  (dats m 0 c).arrAt_eq_of_cover 6 (result m c) (fun t _ => flushed_eq m c t) cover

/-- The kernel's run, read: the result array at the packed result, the arguments as launched. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.MemStep.Whole

end
-- ==== Proof.lean ====
/-
  One step of an addressable memory: a Pallas kernel against its jnp reference, equal as extended reals.

  Both programs update a [16, 8192, 128] memory slot by slot with a rank-one erase-and-write, score the updated
  slots of each batch against the batch's four keys by a guarded cosine quotient times a strength, turn the scores
  into weights by a softmax down the 8192 slots, and return the updated memory and the weights side by side,
  [16, 8192, 132].

  The kernel works one batch per grid point and writes the update as  m + w (a - m e);  the reference works on the
  whole arrays and writes it as  m (1 - w e) + w a,  its two outer products contracting an axis of extent one.  On
  real entries these are one number (distributivity), and the precondition makes the four arrays involved real.
  Everything after the update is the same chain of operations on both sides (a product with the keys as a sum over
  the features, two square roots of sums of squares, the same guard 0x322BCC77, a quotient, a maximum from minus
  infinity, an exponential, a sum, a quotient), so once the updated memories agree the packed results agree; no law
  of quotients, roots or exponentials is used.

  The kernel's side: what the body computes from its six blocks entry by entry (Proof/KernelBlock.lean), what its two
  stores leave in the output block (Proof/KernelPieces.lean), and that the sixteen blocks written back are the whole
  packed result (Proof/KernelWhole.lean).  The reference's side: its run (Proof/RefRun.lean) read one operation at a
  time (Proof/RefRead.lean) is the packed result over its own arrangement of the update (Proof/RefValue.lean).  The
  specification and the one algebraic law are Proof/Spec.lean; the entries are real by Proof/Finite.lean.
-/
import proofs.«135158_g49417893707927_cont_8to1c4_680_4_alg».proof.Defs
import proofs.«135158_g49417893707927_cont_8to1c4_680_4_alg».proof.Proof.Gen.Kernel
import proofs.«135158_g49417893707927_cont_8to1c4_680_4_alg».proof.Proof.Gen.Kernel.Skeleton
import proofs.«135158_g49417893707927_cont_8to1c4_680_4_alg».proof.Proof.Gen.Kernel.Launch
import proofs.«135158_g49417893707927_cont_8to1c4_680_4_alg».proof.Proof.Gen.Kernel.Points
import proofs.«135158_g49417893707927_cont_8to1c4_680_4_alg».proof.Proof.Gen.Kernel.Frame
import proofs.«135158_g49417893707927_cont_8to1c4_680_4_alg».proof.Proof.Gen.KernelIdeal
import proofs.«135158_g49417893707927_cont_8to1c4_680_4_alg».proof.Proof.Gen.KernelIdeal.Skeleton
import proofs.«135158_g49417893707927_cont_8to1c4_680_4_alg».proof.Proof.Gen.KernelIdeal.Launch
import proofs.«135158_g49417893707927_cont_8to1c4_680_4_alg».proof.Proof.Gen.KernelIdeal.Points
import proofs.«135158_g49417893707927_cont_8to1c4_680_4_alg».proof.Proof.Gen.KernelIdeal.Frame
import proofs.«135158_g49417893707927_cont_8to1c4_680_4_alg».proof.Proof.Gen.ReferenceIdeal
import proofs.«135158_g49417893707927_cont_8to1c4_680_4_alg».proof.Proof.Gen.Pre_finite_inputs
import proofs.«135158_g49417893707927_cont_8to1c4_680_4_alg».proof.Proof.Gen.KernelIdeal.Value
import proofs.«135158_g49417893707927_cont_8to1c4_680_4_alg».proof.Proof.RefRun
import proofs.«135158_g49417893707927_cont_8to1c4_680_4_alg».proof.Proof.RefRead
import proofs.«135158_g49417893707927_cont_8to1c4_680_4_alg».proof.Proof.Spec
import proofs.«135158_g49417893707927_cont_8to1c4_680_4_alg».proof.Proof.Finite
import proofs.«135158_g49417893707927_cont_8to1c4_680_4_alg».proof.Proof.RefValue
import proofs.«135158_g49417893707927_cont_8to1c4_680_4_alg».proof.Proof.KernelWhole
import Idealize.ShloMosaic.Adequacy
import Idealize.ShloMosaic.Init

noncomputable section

namespace Cert.Proof

open Idealize.ShloMosaic Idealize.SL.Sem Cert.Kernel

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories agreeing on the arguments both programs end at the packed result of the kernel's arrangement of
    the update: the kernel block by block, the reference after its own arrangement is turned into the kernel's by
    distributivity on the real entries the precondition provides. -/
theorem algebraic : Cert.algebraic_KernelIdeal_ReferenceIdeal := by
  intro m ρ m' ρ' hpre hagree
  refine ⟨fun c => Cert.MemStep.Whole.result m c, Cert.MemStep.Whole.run m ρ, ?_⟩
  refine (θ_run Cert.ReferenceIdeal.defs _ _).mono (fun _ h c => ⟨(h c).1.trans ?_, (h c).2⟩)
    (Cert.ReferenceIdeal.RunP.run (F := Ideal) m' ρ')
  obtain ⟨a0, a1, a2, a3, a4, a5⟩ := hagree c
  obtain ⟨hM, hW, hA, hE⟩ := Cert.MemStep.Finite.entries_real _ _ _ _ _ _ (hpre c)
  rw [Cert.ReferenceIdeal.ReadP.val_main_v32_eq, a0, a1, a2, a3, a4, a5, Cert.MemStep.Ref.ref_packed,
    Cert.MemStep.Ref.refCube_eq, Cert.MemStep.updatedRef_eq _ _ _ _ hM hW hA hE]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
